-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096x32 : Shape := ⟨2, ![4096, 32]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x32 : S_.BroadcastsInDim S4096x32 (![] : Fin 0 → Fin S4096x32.rank)
  reducesTo_S4096x32_S_d0_1 : S4096x32.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4x2048x4096 .f32) (main_arg1 : IVec S4096x4096 32) (main_arg2 : FVec F S4096x32 .f32) (main_arg3 : FVec F S4096x32 .f32) (main_arg4 : FVec F S4096 .f32) (main_arg5 : IVec S4096 32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x32 .f32 := Host.absf main_arg2
  let main_cst_0 : FVec F S_ .f32 := constant S_ .f32 0x7F800000#32
  let main_v5 : FVec F S4096x32 .f32 := broadcastInDim S4096x32 ![] bcast_S_S4096x32 main_cst_0
  let main_v6 : IVec S4096x32 1 := cmpf .olt main_v4 main_v5
  let main_c_1 : IVec S_ 1 := constantI S_ 1 1#1
  let main_v7 : IVec S_ 1 := (fun x v => Host.reduce IntOp.andi x v reducesTo_S4096x32_S_d0_1 h_S_) main_v6 main_c_1
  let main_v8 : IVec S_ 1 := andi main_v3 main_v7
  let main_v9 : FVec F S4096x32 .f32 := Host.absf main_arg3
  let main_cst_2 : FVec F S_ .f32 := constant S_ .f32 0x7F800000#32
  let main_v10 : FVec F S4096x32 .f32 := broadcastInDim S4096x32 ![] bcast_S_S4096x32 main_cst_2
  let main_v11 : IVec S4096x32 1 := cmpf .olt main_v9 main_v10
  let main_c_3 : IVec S_ 1 := constantI S_ 1 1#1
  let main_v12 : IVec S_ 1 := (fun x v => Host.reduce IntOp.andi x v reducesTo_S4096x32_S_d0_1 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4x2048x4096 : Shape := ⟨3, ![4, 2048, 4096]⟩
abbrev S4096x4096 : Shape := ⟨2, ![4096, 4096]⟩
abbrev S4096x32 : Shape := ⟨2, ![4096, 32]⟩
abbrev S4096 : Shape := ⟨1, ![4096]⟩
abbrev S_ : Shape := ⟨0, ![]⟩
abbrev S4096x1 : Shape := ⟨2, ![4096, 1]⟩
abbrev S8192x4096 : Shape := ⟨2, ![8192, 4096]⟩
abbrev S1x4096 : Shape := ⟨2, ![1, 4096]⟩
abbrev S512x4096 : Shape := ⟨2, ![512, 4096]⟩
abbrev S512x32 : Shape := ⟨2, ![512, 32]⟩
abbrev S1x512 : Shape := ⟨2, ![1, 512]⟩
abbrev S512x512 : Shape := ⟨2, ![512, 512]⟩
abbrev S512x128 : Shape := ⟨2, ![512, 128]⟩
abbrev S512x1 : Shape := ⟨2, ![512, 1]⟩

abbrev nBuf : Space → Nat
  | .hbm => 20
  | .vmem => 13
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x32, .f32⟩
  | .hbm, ⟨3, _⟩ => ⟨S4096x32, .f32⟩
  | .hbm, ⟨4, _⟩ => ⟨S4096, .f32⟩
  | .hbm, ⟨5, _⟩ => ⟨S4096, .i32⟩
  | .hbm, ⟨6, _⟩ => ⟨S_, .i32⟩
  | .hbm, ⟨7, _⟩ => ⟨S4096, .i32⟩
  | .hbm, ⟨8, _⟩ => ⟨S4096, .i1⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S4096, .i32⟩
  | .hbm, ⟨13, _⟩ => ⟨S4096x1, .i32⟩
  | .hbm, ⟨14, _⟩ => ⟨S4x2048x4096, .f32⟩
  | .hbm, ⟨15, _⟩ => ⟨S8192x4096, .f32⟩
  | .hbm, ⟨16, _⟩ => ⟨S8192x4096, .bf16⟩
  | .hbm, ⟨17, _⟩ => ⟨S1x4096, .f32⟩
  | .hbm, ⟨18, _⟩ => ⟨S8192x4096, .f32⟩
  | .hbm, ⟨19, _⟩ => ⟨S4x2048x4096, .f32⟩
  | .local _ .vmem, ⟨0, _⟩ => ⟨S512x4096, .i32⟩
  | .local _ .vmem, ⟨1, _⟩ => ⟨S512x4096, .i32⟩
  | .local _ .vmem, ⟨2, _⟩ => ⟨S512x32, .f32⟩
  | .local _ .vmem, ⟨3, _⟩ => ⟨S512x32, .f32⟩
  | .local _ .vmem, ⟨4, _⟩ => ⟨S512x32, .f32⟩
  | .local _ .vmem, ⟨5, _⟩ => ⟨S512x32, .f32⟩
  | .local _ .vmem, ⟨6, _⟩ => ⟨S512x4096, .bf16⟩
  | .local _ .vmem, ⟨7, _⟩ => ⟨S512x4096, .bf16⟩
  | .local _ .vmem, ⟨8, _⟩ => ⟨S1x512, .f32⟩
  | .local _ .vmem, ⟨9, _⟩ => ⟨S1x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  shapeCasts_S4x2048x4096_S8192x4096 : S4x2048x4096.ShapeCasts S8192x4096
  bitsLt_bf16_f32 : FTy.bits .bf16 < FTy.bits .f32
  shapeCasts_S4096_S1x4096 : S4096.ShapeCasts S1x4096
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x4096_S512x128_0_0 : ∀ a, (![0, 0] : Fin 2 → Nat) a + S512x128.size a ≤ S512x4096.size a
  h_S512x128 : 0 < S512x128.numel
  inb_S512x32_S512x1_0_0 : ∀ a, (![0, 0] : Fin 2 → Nat) a + S512x1.size a ≤ S512x32.size a
  h_S512x1 : 0 < S512x1.numel
  shapeCasts_S512x128_S512x128 : S512x128.ShapeCasts S512x128
  shapeCasts_S512x1_S512x1 : S512x1.ShapeCasts S512x1
  broadcasts_S512x1_S512x128 : S512x1.Broadcasts S512x128
  inb_S512x4096_S512x128_0_128 : ∀ a, (![0, 128] : Fin 2 → Nat) a + S512x128.size a ≤ S512x4096.size a
  inb_S512x32_S512x1_0_1 : ∀ a, (![0, 1] : Fin 2 → Nat) a + S512x1.size a ≤ S512x32.size a
  inb_S512x4096_S512x128_0_256 : ∀ a, (![0, 256] : Fin 2 → Nat) a + S512x128.size a ≤ S512x4096.size a
  inb_S512x32_S512x1_0_2 : ∀ a, (![0, 2] : Fin 2 → Nat) a + S512x1.size a ≤ S512x32.size a
  inb_S512x4096_S512x128_0_384 : ∀ a, (![0, 384] : Fin 2 → Nat) a + S512x128.size a ≤ S512x4096.size a
  inb_S512x32_S512x1_0_3 : ∀ a, (![0, 3] : Fin 2 → Nat) a + S512x1.size a ≤ S512x32.size a
  inb_S512x4096_S512x128_0_512 : ∀ a, (![0, 512] : Fin 2 → Nat) a + S512x128.size a ≤ S512x4096.size a
  inb_S512x32_S512x1_0_4 : ∀ a, (![0, 4] : Fin 2 → Nat) a + S512x1.size a ≤ S512x32.size a
  inb_S512x4096_S512x128_0_640 : ∀ a, (![0, 640] : Fin 2 → Nat) a + S512x128.size a ≤ S512x4096.size a
  inb_S512x32_S512x1_0_5 : ∀ a, (![0, 5] : Fin 2 → Nat) a + S512x1.size a ≤ S512x32.size a
  inb_S512x4096_S512x128_0_768 : ∀ a, (![0, 768] : Fin 2 → Nat) a + S512x128.size a ≤ S512x4096.size a
  inb_S512x32_S512x1_0_6 : ∀ a, (![0, 6] : Fin 2 → Nat) a + S512x1.size a ≤ S512x32.size a
  inb_S512x4096_S512x128_0_896 : ∀ a, (![0, 896] : Fin 2 → Nat) a + S512x128.size a ≤ S512x4096.size a
  inb_S512x32_S512x1_0_7 : ∀ a, (![0, 7] : Fin 2 → Nat) a + S512x1.size a ≤ S512x32.size a
  inb_S512x4096_S512x128_0_1024 : ∀ a, (![0, 1024] : Fin 2 → Nat) a + S512x128.size a ≤ S512x4096.size a
  inb_S512x32_S512x1_0_8 : ∀ a, (![0, 8] : Fin 2 → Nat) a + S512x1.size a ≤ S512x32.size a
  inb_S512x4096_S512x128_0_1152 : ∀ a, (![0, 1152] : Fin 2 → Nat) a + S512x128.size a ≤ S512x4096.size a
  inb_S512x32_S512x1_0_9 : ∀ a, (![0, 9] : Fin 2 → Nat) a + S512x1.size a ≤ S512x32.size a
  inb_S512x4096_S512x128_0_1280 : ∀ a, (![0, 1280] : Fin 2 → Nat) a + S512x128.size a ≤ S512x4096.size a
  inb_S512x32_S512x1_0_10 : ∀ a, (![0, 10] : Fin 2 → Nat) a + S512x1.size a ≤ S512x32.size a
  inb_S512x4096_S512x128_0_1408 : ∀ a, (![0, 1408] : Fin 2 → Nat) a + S512x128.size a ≤ S512x4096.size a
  inb_S512x32_S512x1_0_11 : ∀ a, (![0, 11] : Fin 2 → Nat) a + S512x1.size a ≤ S512x32.size a
  inb_S512x4096_S512x128_0_1536 : ∀ a, (![0, 1536] : Fin 2 → Nat) a + S512x128.size a ≤ S512x4096.size a
  inb_S512x32_S512x1_0_12 : ∀ a, (![0, 12] : Fin 2 → Nat) a + S512x1.size a ≤ S512x32.size a
  inb_S512x4096_S512x128_0_1664 : ∀ a, (![0, 1664] : Fin 2 → Nat) a + S512x128.size a ≤ S512x4096.size a
  inb_S512x32_S512x1_0_13 : ∀ a, (![0, 13] : Fin 2 → Nat) a + S512x1.size a ≤ S512x32.size a
  inb_S512x4096_S512x128_0_1792 : ∀ a, (![0, 1792] : Fin 2 → Nat) a + S512x128.size a ≤ S512x4096.size a
  inb_S512x32_S512x1_0_14 : ∀ a, (![0, 14] : Fin 2 → Nat) a + S512x1.size a ≤ S512x32.size a
  inb_S512x4096_S512x128_0_1920 : ∀ a, (![0, 1920] : Fin 2 → Nat) a + S512x128.size a ≤ S512x4096.size a
  inb_S512x32_S512x1_0_15 : ∀ a, (![0, 15] : Fin 2 → Nat) a + S512x1.size a ≤ S512x32.size a
  inb_S512x4096_S512x128_0_2048 : ∀ a, (![0, 2048] : Fin 2 → Nat) a + S512x128.size a ≤ S512x4096.size a
  inb_S512x32_S512x1_0_16 : ∀ a, (![0, 16] : Fin 2 → Nat) a + S512x1.size a ≤ S512x32.size a
  inb_S512x4096_S512x128_0_2176 : ∀ a, (![0, 2176] : Fin 2 → Nat) a + S512x128.size a ≤ S512x4096.size a
  inb_S512x32_S512x1_0_17 : ∀ a, (![0, 17] : Fin 2 → Nat) a + S512x1.size a ≤ S512x32.size a
  inb_S512x4096_S512x128_0_2304 : ∀ a, (![0, 2304] : Fin 2 → Nat) a + S512x128.size a ≤ S512x4096.size a
  inb_S512x32_S512x1_0_18 : ∀ a, (![0, 18] : Fin 2 → Nat) a + S512x1.size a ≤ S512x32.size a
  inb_S512x4096_S512x128_0_2432 : ∀ a, (![0, 2432] : Fin 2 → Nat) a + S512x128.size a ≤ S512x4096.size a
  inb_S512x32_S512x1_0_19 : ∀ a, (![0, 19] : Fin 2 → Nat) a + S512x1.size a ≤ S512x32.size a
  inb_S512x4096_S512x128_0_2560 : ∀ a, (![0, 2560] : Fin 2 → Nat) a + S512x128.size a ≤ S512x4096.size a
  inb_S512x32_S512x1_0_20 : ∀ a, (![0, 20] : Fin 2 → Nat) a + S512x1.size a ≤ S512x32.size a
  inb_S512x4096_S512x128_0_2688 : ∀ a, (![0, 2688] : Fin 2 → Nat) a + S512x128.size a ≤ S512x4096.size a
  inb_S512x32_S512x1_0_21 : ∀ a, (![0, 21] : Fin 2 → Nat) a + S512x1.size a ≤ S512x32.size a
  inb_S512x4096_S512x128_0_2816 : ∀ a, (![0, 2816] : Fin 2 → Nat) a + S512x128.size a ≤ S512x4096.size a
  inb_S512x32_S512x1_0_22 : ∀ a, (![0, 22] : Fin 2 → Nat) a + S512x1.size a ≤ S512x32.size a
  inb_S512x4096_S512x128_0_2944 : ∀ a, (![0, 2944] : Fin 2 → Nat) a + S512x128.size a ≤ S512x4096.size a
  inb_S512x32_S512x1_0_23 : ∀ a, (![0, 23] : Fin 2 → Nat) a + S512x1.size a ≤ S512x32.size a
  inb_S512x4096_S512x128_0_3072 : ∀ a, (![0, 3072] : Fin 2 → Nat) a + S512x128.size a ≤ S512x4096.size a
  inb_S512x32_S512x1_0_24 : ∀ a, (![0, 24] : Fin 2 → Nat) a + S512x1.size a ≤ S512x32.size a
  inb_S512x4096_S512x128_0_3200 : ∀ a, (![0, 3200] : Fin 2 → Nat) a + S512x128.size a ≤ S512x4096.size a
  inb_S512x32_S512x1_0_25 : ∀ a, (![0, 25] : Fin 2 → Nat) a + S512x1.size a ≤ S512x32.size a
  inb_S512x4096_S512x128_0_3328 : ∀ a, (![0, 3328] : Fin 2 → Nat) a + S512x128.size a ≤ S512x4096.size a
  inb_S512x32_S512x1_0_26 : ∀ a, (![0, 26] : Fin 2 → Nat) a + S512x1.size a ≤ S512x32.size a
  inb_S512x4096_S512x128_0_3456 : ∀ a, (![0, 3456] : Fin 2 → Nat) a + S512x128.size a ≤ S512x4096.size a
  inb_S512x32_S512x1_0_27 : ∀ a, (![0, 27] : Fin 2 → Nat) a + S512x1.size a ≤ S512x32.size a
  inb_S512x4096_S512x128_0_3584 : ∀ a, (![0, 3584] : Fin 2 → Nat) a + S512x128.size a ≤ S512x4096.size a
  inb_S512x32_S512x1_0_28 : ∀ a, (![0, 28] : Fin 2 → Nat) a + S512x1.size a ≤ S512x32.size a
  inb_S512x4096_S512x128_0_3712 : ∀ a, (![0, 3712] : Fin 2 → Nat) a + S512x128.size a ≤ S512x4096.size a
  inb_S512x32_S512x1_0_29 : ∀ a, (![0, 29] : Fin 2 → Nat) a + S512x1.size a ≤ S512x32.size a
  inb_S512x4096_S512x128_0_3840 : ∀ a, (![0, 3840] : Fin 2 → Nat) a + S512x128.size a ≤ S512x4096.size a
  inb_S512x32_S512x1_0_30 : ∀ a, (![0, 30] : Fin 2 → Nat) a + S512x1.size a ≤ S512x32.size a
  inb_S512x4096_S512x128_0_3968 : ∀ a, (![0, 3968] : Fin 2 → Nat) a + S512x128.size a ≤ S512x4096.size a
  inb_S512x32_S512x1_0_31 : ∀ a, (![0, 31] : Fin 2 → Nat) a + S512x1.size a ≤ S512x32.size a
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  shapeCasts_S8192x4096_S4x2048x4096 : S8192x4096.ShapeCasts S4x2048x4096
  gather_S4x2048x4096_S4096x1_S4x2048x4096_01_2_n_n_2_1_420481_wf : GatherDims.WF S4x2048x4096 S4096x1 S4x2048x4096 [0, 1] [2] [] [2] [] 1 ![4, 2048, 1]
  dot_S512x128_S512x128_S512x512_1_1_0_0_n_n_wf : DotDims.WF S512x128 S512x128 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .i32 = 32 ∨ (Rect.block (s := S4096x4096) S512x4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S4096x32.size a
  hwx0_1 : ∀ i : grid0.Coords, EltTy.bits .f32 = 32 ∨ (Rect.block (s := S4096x32) S512x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x32.size a ≤ S4096x32.size a
  hwx0_2 : ∀ i : grid0.Coords, EltTy.bits .f32 = 32 ∨ (Rect.block (s := S4096x32) S512x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S8192x4096.size a
  hwx0_3 : ∀ i : grid0.Coords, EltTy.bits .bf16 = 32 ∨ (Rect.block (s := S8192x4096) S512x4096.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x4096.size a
  hwx0_4 : ∀ i : grid0.Coords, EltTy.bits .f32 = 32 ∨ (Rect.block (s := S1x4096) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S8192x4096.size a
  hwx0_5 : ∀ i : grid0.Coords, EltTy.bits .f32 = 32 ∨ (Rect.block (s := S8192x4096) S512x512.size (cc0_transform_5 i) (hinb0_5 i)).WholeWords (EltTy.packing .f32)

variable [Facts₀]

def gather_S4x2048x4096_S4096x1_S4x2048x4096_01_2_n_n_2_1_420481 : GatherDims S4x2048x4096 S4096x1 S4x2048x4096 where
  offsetDims := [0, 1]
  collapsedSliceDims := [2]
  operandBatchingDims := []
  startIndicesBatchingDims := []
  startIndexMap := [2]
  indexVectorDim := 1
  sliceSizes := ![4, 2048, 1]
  wf := gather_S4x2048x4096_S4096x1_S4x2048x4096_01_2_n_n_2_1_420481_wf
def dot_S512x128_S512x128_S512x512_1_1_0_0_n_n : DotDims S512x128 S512x128 S512x512 where
  lhsContracting := [1]
  rhsContracting := [1]
  lhsNonContracting := [0]
  rhsNonContracting := [0]
  lhsBatch := []
  rhsBatch := []
  wf := dot_S512x128_S512x128_S512x512_1_1_0_0_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S512x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10) S512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096x32 : Shape := ⟨2, ![4096, 32]⟩
abbrev S4096 : Shape := ⟨1, ![4096]⟩
abbrev S4096x32x128 : Shape := ⟨3, ![4096, 32, 128]⟩
abbrev S4096x32x1 : Shape := ⟨3, ![4096, 32, 1]⟩
abbrev S_ : Shape := ⟨0, ![]⟩
abbrev S4096x1 : Shape := ⟨2, ![4096, 1]⟩
abbrev S1x1x4096 : Shape := ⟨3, ![1, 1, 4096]⟩

abbrev nBuf : Space → Nat
  | .hbm => 49
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x32, .f32⟩
  | .hbm, ⟨3, _⟩ => ⟨S4096x32, .f32⟩
  | .hbm, ⟨4, _⟩ => ⟨S4096, .f32⟩
  | .hbm, ⟨5, _⟩ => ⟨S4096, .i32⟩
  | .hbm, ⟨6, _⟩ => ⟨S4096x32x128, .i32⟩
  | .hbm, ⟨7, _⟩ => ⟨S4096x32x1, .f32⟩
  | .hbm, ⟨8, _⟩ => ⟨S4096x32x1, .f32⟩
  | .hbm, ⟨9, _⟩ => ⟨S_, .i32⟩
  | .hbm, ⟨10, _⟩ => ⟨S4096x32x128, .i32⟩
  | .hbm, ⟨11, _⟩ => ⟨S4096x32x128, .i32⟩
  | .hbm, ⟨12, _⟩ => ⟨S_, .i32⟩
  | .hbm, ⟨13, _⟩ => ⟨S4096x32x128, .i32⟩
  | .hbm, ⟨14, _⟩ => ⟨S4096x32x128, .i32⟩
  | .hbm, ⟨15, _⟩ => ⟨S_, .i32⟩
  | .hbm, ⟨16, _⟩ => ⟨S4096x32x128, .i32⟩
  | .hbm, ⟨17, _⟩ => ⟨S4096x32x128, .i32⟩
  | .hbm, ⟨18, _⟩ => ⟨S4096x32x128, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S4096x32x128, .i32⟩
  | .hbm, ⟨23, _⟩ => ⟨S4096x32x128, .i32⟩
  | .hbm, ⟨24, _⟩ => ⟨S_, .i32⟩
  | .hbm, ⟨25, _⟩ => ⟨S4096x32x128, .i32⟩
  | .hbm, ⟨26, _⟩ => ⟨S4096x32x128, .i32⟩
  | .hbm, ⟨27, _⟩ => ⟨S_, .i32⟩
  | .hbm, ⟨28, _⟩ => ⟨S4096x32x128, .i32⟩
  | .hbm, ⟨29, _⟩ => ⟨S4096x32x128, .i32⟩
  | .hbm, ⟨30, _⟩ => ⟨S4096x32x128, .f32⟩
  | .hbm, ⟨31, _⟩ => ⟨S4096x32x128, .f32⟩
  | .hbm, ⟨32, _⟩ => ⟨S4096x32x128, .f32⟩
  | .hbm, ⟨33, _⟩ => ⟨S4096x32x128, .f32⟩
  | .hbm, ⟨34, _⟩ => ⟨S4096x32x128, .f32⟩
  | .hbm, ⟨35, _⟩ => ⟨S4096x4096, .f32⟩
  | .hbm, ⟨36, _⟩ => ⟨S_, .i32⟩
  | .hbm, ⟨37, _⟩ => ⟨S4096, .i32⟩
  | .hbm, ⟨38, _⟩ => ⟨S4096, .i1⟩
  | .hbm, ⟨39, _⟩ => ⟨S_, .i32⟩
  | .hbm, ⟨40, _⟩ => ⟨S4096, .i32⟩
  | .hbm, ⟨41, _⟩ => ⟨S4096, .i32⟩
  | .hbm, ⟨42, _⟩ => ⟨S4096, .i32⟩
  | .hbm, ⟨43, _⟩ => ⟨S4096x1, .i32⟩
  | .hbm, ⟨44, _⟩ => ⟨S4x2048x4096, .f32⟩
  | .hbm, ⟨45, _⟩ => ⟨S4x2048x4096, .f32⟩
  | .hbm, ⟨46, _⟩ => ⟨S1x1x4096, .f32⟩
  | .hbm, ⟨47, _⟩ => ⟨S4x2048x4096, .f32⟩
  | .hbm, ⟨48, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_c_3 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v10 : Ref sig .tc := ⟨.hbm, 26, rfl⟩
abbrev main_c_4 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_5 : Ref sig .tc := ⟨.hbm, 36, rfl⟩
abbrev main_v19 : Ref sig .tc := ⟨.hbm, 37, rfl⟩
abbrev main_v20 : Ref sig .tc := ⟨.hbm, 38, rfl⟩
abbrev main_c_6 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩

abbrev nD : Nat := 1
abbrev τ : Topo := Topo.v7x

variable {F : FTy → Type} [FloatOps F]

class Facts₀ : Prop where
  shapeCasts_S4096x4096_S4096x32x128 : S4096x4096.ShapeCasts S4096x32x128
  bcast_S4096x32_S4096x32x1_0_1 : S4096x32.BroadcastsInDim S4096x32x1 (![0, 1] : Fin 2 → Fin S4096x32x1.rank)
  bcast_S_S4096x32x128 : S_.BroadcastsInDim S4096x32x128 (![] : Fin 0 → Fin S4096x32x128.rank)
  bcast_S4096x32x1_S4096x32x128_0_1_2 : S4096x32x1.BroadcastsInDim S4096x32x128 (![0, 1, 2] : Fin 3 → Fin S4096x32x128.rank)
  shapeCasts_S4096x32x128_S4096x4096 : S4096x32x128.ShapeCasts S4096x4096
  bcast_S_S4096 : S_.BroadcastsInDim S4096 (![] : Fin 0 → Fin S4096.rank)
  bcast_S4096_S4096x1_0 : S4096.BroadcastsInDim S4096x1 (![0] : Fin 1 → Fin S4096x1.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  gather_S4x2048x4096_S4096x1_S4x2048x4096_01_2_n_n_2_1_420481_wf : GatherDims.WF S4x2048x4096 S4096x1 S4x2048x4096 [0, 1] [2] [] [2] [] 1 ![4, 2048, 1]
  dot_S4x2048x4096_S4096x4096_S4x2048x4096_2_1_01_0_n_n_wf : DotDims.WF S4x2048x4096 S4096x4096 S4x2048x4096 [2] [1] [0, 1] [0] [] []

variable [Facts₀]

def gather_S4x2048x4096_S4096x1_S4x2048x4096_01_2_n_n_2_1_420481 : GatherDims S4x2048x4096 S4096x1 S4x2048x4096 where
  offsetDims := [0, 1]
  collapsedSliceDims := [2]
  operandBatchingDims := []
  startIndicesBatchingDims := []
  startIndexMap := [2]
  indexVectorDim := 1
  sliceSizes := ![4, 2048, 1]
  wf := gather_S4x2048x4096_S4096x1_S4x2048x4096_01_2_n_n_2_1_420481_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Spec.lean ====
/-
  What both programs compute, as one function of the argument arrays over the extended reals.

  A master code `q` (an 8-bit code held in a 32-bit word) is cut to its 4-bit slice with rounding,
  `clip((q >> 4) + ((q >> 3) & 1), 0, 15)`, and shifted back, `<< 4`; the weight it stands for is
  `scale · (slice − zero)`, scale and zero shared by the 128 codes of one group. The result at (b, s, o) is
  `Σ_{k < 4096} X[b, s, k] · weight[o, k] + bias[o]`, `X` the activations with their columns permuted.
  The kernel reaches the sum group by group (32 groups of 128 columns, added one after the other to an
  accumulator that starts at zero); the reference contracts all 4096 columns at once. The two agree because
  addition on the extended reals is commutative and associative: `sum_groups` below.
-/
import Idealize.ShloMosaic.PureOps.Ideal
import Idealize.ShloMosaic.Lib.ValueIdx
import Mathlib.Algebra.BigOperators.Fin
import Mathlib.Logic.Equiv.Fin.Basic

noncomputable section

namespace Cert.Spec

open Idealize.ShloMosaic Idealize.ShloMosaic.ValueIdx

/-- The 4-bit slice of a master code, with rounding and clipping, shifted back to the master scale: one 32-bit word. -/
def sliceWord (q : BitVec 32) : BitVec 32 :=
  IntOp.shli .vector
    (IntOp.minsi 15#32 (IntOp.maxsi 0#32 (IntOp.addi (IntOp.shrsi .vector q 4#32) (IntOp.andi (IntOp.shrsi .vector q 3#32) 1#32))))
    4#32

/-- The weight a master code stands for under its group's scale and zero point. -/
def weight (q : BitVec 32) (s z : Ideal .f32) : Ideal .f32 :=
  s * (FloatOps.sitofp (F := Ideal) .f32 (sliceWord q) - z)

/-- The group (of 128 columns) a column belongs to. -/
def groupOf (k : Fin 4096) : Fin 32 := ⟨k.val / 128, by have := k.isLt; omega⟩

/-- The result: at (b, s, o), the activations' row (b, s) against the weights' row o over all 4096 columns, plus bias o. -/
def result (X : (⟨3, ![4, 2048, 4096]⟩ : Shape).Idx → Ideal .f32) (q : (⟨2, ![4096, 4096]⟩ : Shape).Idx → BitVec 32)
    (s z : (⟨2, ![4096, 32]⟩ : Shape).Idx → Ideal .f32) (bias : (⟨1, ![4096]⟩ : Shape).Idx → Ideal .f32)
    (b : Fin 4) (t : Fin 2048) (o : Fin 4096) : Ideal .f32 :=
  (∑ k : Fin 4096, X (ix3 b t k) * weight (q (ix2 o k)) (s (ix2 o (groupOf k))) (z (ix2 o (groupOf k)))) + bias (ix1 o)

/-- A sum over 4096 columns is the sum over 32 groups of the sums over each group's 128 columns (the column of
    place `kk` in group `j` is `128 j + kk`; reduced mod 4096 here so that the term is total in `j`). -/
theorem sum_groups {M : Type*} [AddCommMonoid M] (T : Fin 4096 → M) :
    (∑ j ∈ Finset.range 32, ∑ kk : Fin 128, T ⟨(128 * j + kk.val) % 4096, Nat.mod_lt _ (by norm_num)⟩) = ∑ k : Fin 4096, T k := by
  rw [Finset.sum_range (fun j => ∑ kk : Fin 128, T ⟨(128 * j + kk.val) % 4096, Nat.mod_lt _ (by norm_num)⟩)]
  rw [← Fintype.sum_prod_type' (f := fun (j : Fin 32) (kk : Fin 128) => T ⟨(128 * j.val + kk.val) % 4096, Nat.mod_lt _ (by norm_num)⟩)]
  refine Fintype.sum_equiv (finProdFinEquiv (m := 32) (n := 128)) _ _ (fun x => ?_)
  obtain ⟨j, kk⟩ := x
  refine congrArg T (Fin.ext ?_)
  have hj := j.isLt
  have hk := kk.isLt
  show (128 * j.val + kk.val) % 4096 = kk.val + 128 * j.val
  rw [Nat.mod_eq_of_lt (by omega)]
  omega

end Cert.Spec

end
-- ==== Proof.RefValue.lean ====
import proofs.«415557_j16587163697891_1_alg».proof.Proof.Gen.ReferenceIdeal.Run
import proofs.«415557_j16587163697891_1_alg».proof.Proof.Gen.ReferenceIdeal.Read
import proofs.«415557_j16587163697891_1_alg».proof.Proof.Spec
import Idealize.ShloMosaic.Lib.KernelVsHost
import Idealize.ShloMosaic.Lib.ValueIdx
import Idealize.ShloMosaic.PureOps.Ideal

/-
  The reference's result, read at one index, is the specification's result.

  The reference reshapes the 4096×4096 master codes to 4096×32×128 (column k of row o goes to group k / 128,
  place k % 128), forms the weights there elementwise with the group's scale and zero broadcast along the places,
  reshapes back, and contracts the gathered activations against the weights over all 4096 columns before adding the
  bias. Read at (o, k) the two reshapes cancel, the broadcasts read the group k / 128, and the integer chain is the
  specification's slice word because a 32-bit shift is the same word on both arithmetic units.
-/

noncomputable section

namespace Cert.ReferenceIdeal.RefValue

open Cert.ReferenceIdeal Cert.ReferenceIdeal.Gen Cert.ReferenceIdeal.Read Idealize.ShloMosaic Idealize.ShloMosaic.ValueIdx

/-- The place of column k inside its group. -/
def placeOf (k : Fin 4096) : Fin 128 := ⟨k.val % 128, Nat.mod_lt _ (by norm_num)⟩

/-- Reshaping 4096×32×128 back to 4096×4096: the element (o, k) comes from (o, k / 128, k % 128). -/
theorem idx18_eq (o k : Fin 4096) :
    idx_main_v18 (ix2 o k) = ix3 o (Cert.Spec.groupOf k) (placeOf k) := by
  funext a
  refine Fin.ext ?_
  have ho := o.isLt
  have hk := k.isLt
  match a with
  | ⟨0, _⟩ => show (o.val * 4096 + k.val) / 4096 = o.val; omega
  | ⟨1, _⟩ => show (o.val * 4096 + k.val) / 128 % 32 = k.val / 128; omega
  | ⟨2, _⟩ => show (o.val * 4096 + k.val) % 128 = k.val % 128; omega

/-- Reshaping 4096×4096 to 4096×32×128: the element (o, k / 128, k % 128) comes from (o, k). -/
theorem idx0_eq (o k : Fin 4096) :
    idx_main_v0 (ix3 o (Cert.Spec.groupOf k) (placeOf k)) = ix2 o k := by
  funext a
  refine Fin.ext ?_
  have ho := o.isLt
  have hk := k.isLt
  match a with
  | ⟨0, _⟩ => show ((o.val * 32 + k.val / 128) * 128 + k.val % 128) / 4096 = o.val; omega
  | ⟨1, _⟩ => show ((o.val * 32 + k.val / 128) * 128 + k.val % 128) % 4096 = k.val; omega

/-- The scale broadcast along the places reads its group's entry. -/
theorem idx16_eq (o : Fin 4096) (g : Fin 32) (p : Fin 128) :
    idx_main_v1 (idx_main_v16 (ix3 o g p)) = ix2 o g := by
  funext a
  match a with
  | ⟨0, _⟩ => rfl
  | ⟨1, _⟩ => rfl

/-- The zero point broadcast along the places reads its group's entry. -/
theorem idx14_eq (o : Fin 4096) (g : Fin 32) (p : Fin 128) :
    idx_main_v2 (idx_main_v14 (ix3 o g p)) = ix2 o g := by
  funext a
  match a with
  | ⟨0, _⟩ => rfl
  | ⟨1, _⟩ => rfl

/-- The reference's weight matrix at (o, k) is the specification's weight of the master code at (o, k) under the scale
    and zero of row o, group k / 128. -/
theorem weight_eq (x1 : (⟨S4096x4096, .i32⟩ : BufTy).Contents (Elt Ideal))
    (x2 x3 : (⟨S4096x32, .f32⟩ : BufTy).Contents (Elt Ideal)) (o k : Fin 4096) :
    val_main_v18 (F := Ideal) x1 x2 x3 (ix2 o k)
      = Cert.Spec.weight (x1 (ix2 o k)) (x2 (ix2 o (Cert.Spec.groupOf k))) (x3 (ix2 o (Cert.Spec.groupOf k))) := by
  rw [val_main_v18_apply, idx18_eq, val_main_v17_apply, val_main_v16_apply, val_main_v1_apply, idx16_eq,
    val_main_v15_apply, val_main_v14_apply, val_main_v2_apply, idx14_eq, val_main_v13_apply, val_main_v12_apply,
    val_main_v11_apply, val_main_c_4_apply, val_main_v10_apply, val_main_call0_v4_apply, val_main_call0_v3_apply,
    val_main_c_3_apply, val_main_call0_v2_apply, val_main_call0_v1_apply, val_main_call0_v0_apply, val_main_c_2_apply,
    val_main_v9_apply, val_main_v4_apply, val_main_v3_apply, val_main_c_apply, val_main_v8_apply, val_main_v6_apply,
    val_main_v5_apply, val_main_c_0_apply, val_main_v7_apply, val_main_c_1_apply, val_main_v0_apply, idx0_eq]
  rw [shrsi_unit .host .vector, shrsi_unit .host .vector, shli_unit .host .vector]
  rfl

/-- The reference's result at (b, t, o) is the specification's: the contraction over all 4096 columns of the gathered
    activations' row (b, t) against the weights' row o, plus bias o. -/
theorem result_eq (x0 : (⟨S4x2048x4096, .f32⟩ : BufTy).Contents (Elt Ideal)) (x1 : (⟨S4096x4096, .i32⟩ : BufTy).Contents (Elt Ideal))
    (x2 x3 : (⟨S4096x32, .f32⟩ : BufTy).Contents (Elt Ideal)) (x4 : (⟨S4096, .f32⟩ : BufTy).Contents (Elt Ideal))
    (x5 : (⟨S4096, .i32⟩ : BufTy).Contents (Elt Ideal)) (b : Fin 4) (t : Fin 2048) (o : Fin 4096) :
    Cert.ReferenceIdeal.Read.val_main_v29 (F := Ideal) x0 x1 x2 x3 x4 x5 (ValueIdx.ix3 b t o)
      = Cert.Spec.result (Cert.ReferenceIdeal.Read.val_main_v25 (F := Ideal) x0 x5) x1 x2 x3 x4 b t o := by
  unfold Cert.Spec.result
  rw [val_main_v29_apply, val_main_v26_apply, val_main_v28_apply, val_main_v27_apply, Ideal.addf_def]
  have hb : idx_main_v27 (idx_main_v28 (ix3 b t o)) = ix1 o := by
    funext a
    match a with
    | ⟨0, _⟩ => rfl
  rw [hb]
  refine congrArg (· + _) (Finset.sum_congr rfl fun k _ => ?_)
  have hl : lidx_main_v26 (ix3 b t o) k = ix3 b t k := by
    funext a
    match a with
    | ⟨0, _⟩ => rfl
    | ⟨1, _⟩ => rfl
    | ⟨2, _⟩ => rfl
  have hr : ridx_main_v26 (ix3 b t o) k = ix2 o k := by
    funext a
    match a with
    | ⟨0, _⟩ => rfl
    | ⟨1, _⟩ => rfl
  rw [hl, hr, weight_eq]

end Cert.ReferenceIdeal.RefValue

end
-- ==== Proof.KernelChunk.lean ====
/-
  The kernel's body as a function of its five input blocks.

  At one grid point the body holds a 512×4096 block of master codes (rows: output features), the 512×32 blocks of
  their scales and zero points, a 512×4096 block of activations (rows: tokens) and a 1×512 block of bias. It clears
  a 512×512 accumulator, and for each of the 32 groups of 128 columns adds to it the product of the activations'
  columns of that group with the dequantized weights of that group (contracting the 128 columns); the output block
  is the accumulator plus the bias row. `groupStep` is one group's update as a function of the four column
  windows it loads, `accAfter g` the accumulator after `g` groups, `blockValue` the output block.
-/
import proofs.«415557_j16587163697891_1_alg».proof.Proof.Gen.KernelIdeal
import Idealize.ShloMosaic.Lib.ValueIdx

noncomputable section

namespace Cert.KernelIdeal.Block

open Cert.KernelIdeal Cert.KernelIdeal.Gen Idealize.ShloMosaic Idealize.ShloMosaic.ValueIdx

variable {F : FTy → Type} [FloatOps F]

/-- Columns `off … off + 127` of a 512×4096 block (the column is reduced mod 4096, which changes nothing while
    `off + 128 ≤ 4096`, so that the window is a total function of `off`). -/
def cols {e : EltTy} (X : Vec F S512x4096 e) (off : Nat) : Vec F S512x128 e :=
  fun y => X (ix2 ⟨(y 0).val, (y 0).isLt⟩ ⟨(off + (y 1).val) % 4096, Nat.mod_lt _ (by norm_num)⟩)

/-- Column `g` of a 512×32 block, as a 512×1 block (reduced mod 32 for the same reason). -/
def col {e : EltTy} (X : Vec F S512x32 e) (g : Nat) : Vec F S512x1 e :=
  fun y => X (ix2 ⟨(y 0).val, (y 0).isLt⟩ ⟨g % 32, Nat.mod_lt _ (by norm_num)⟩)

/-- One group's update of the accumulator: the codes `q` are cut to their rounded, clipped 4-bit slice and shifted
    back, turned into weights `scale · (slice − zero)` with the group's scale and zero point broadcast along the
    128 columns, and the activations' window `xx` is contracted with them over the 128 columns. -/
def groupStep (acc : FVec F S512x512 .f32) (q : Vec F S512x128 .i32) (s z : Vec F S512x1 .f32) (xx : Vec F S512x128 .bf16) :
    FVec F S512x512 .f32 :=
  shapeCast S512x512
    (addf acc
      (matmul dot_S512x128_S512x128_S512x512_1_1_0_0_n_n none (shapeCast S512x128 xx shapeCasts_S512x128_S512x128)
        (truncf .bf16
          (mulf (broadcastTo S512x128 (shapeCast S512x1 s shapeCasts_S512x1_S512x1) broadcasts_S512x1_S512x128)
            (subf
              (sitofp .f32
                (shli
                  (minsi (broadcast S512x128 (15#32 : BitVec 32))
                    (maxsi (broadcast S512x128 (0#32 : BitVec 32))
                      (addi (shrsi q (broadcast S512x128 (4#32 : BitVec 32)))
                        (andi (shrsi q (broadcast S512x128 (3#32 : BitVec 32))) (broadcast S512x128 (1#32 : BitVec 32))))))
                  (broadcast S512x128 (4#32 : BitVec 32))))
              (broadcastTo S512x128 (shapeCast S512x1 z shapeCasts_S512x1_S512x1) broadcasts_S512x1_S512x128)))
          bitsLt_bf16_f32)
        (constant S512x512 .f32 0x00000000#32)))
    shapeCasts_S512x512_S512x512

/-- The accumulator after the first `g` groups. -/
def accAfter (x0 : Vec F S512x4096 .i32) (x1 x2 : Vec F S512x32 .f32) (x3 : Vec F S512x4096 .bf16) : Nat → FVec F S512x512 .f32
  | 0 => shapeCast S512x512 (broadcast S512x512 (Scalar.ofBits (F := F) .f32 0x00000000#32)) shapeCasts_S512x512_S512x512
  | g + 1 => groupStep (accAfter x0 x1 x2 x3 g) (cols x0 (128 * g)) (col x1 g) (col x2 g) (cols x3 (128 * g))

/-- The output block: the accumulator after all 32 groups plus the bias row along the rows. -/
def blockValue (x0 : Vec F S512x4096 .i32) (x1 x2 : Vec F S512x32 .f32) (x3 : Vec F S512x4096 .bf16) (x4 : Vec F S1x512 .f32) :
    FVec F S512x512 .f32 :=
  addf (accAfter x0 x1 x2 x3 32)
    (broadcastTo S512x512 (shapeCast S1x512 x4 shapeCasts_S1x512_S1x512) broadcasts_S1x512_S512x512)

end Cert.KernelIdeal.Block

end
-- ==== Proof.KernelBlock.lean ====
/-
  What the body's run leaves in the output block is `Block.blockValue` of the five input blocks.

  The run's witness is a chain: the accumulator's contents after the k-th whole-block store are that store's
  value, which is the group's update of what the load before it read, and that load read the (k−1)-th store's
  value. The chain is opened one store at a time from the last (`readCov_cons_whole`: a load of the whole block
  after a store of the whole block reads that store's value, whatever was stored before), so the term stays the
  size of the body; then each group's four loads are column windows of the input blocks (`ld_cols`, `ld_col`) and
  what is left is, operation for operation, the 32-fold recursion `Block.accAfter` plus the bias row.
-/
import proofs.«415557_j16587163697891_1_alg».proof.Proof.Gen.KernelIdeal.Frame
import proofs.«415557_j16587163697891_1_alg».proof.Proof.KernelChunk
import Idealize.ShloMosaic.Lib.Pipeline.Value
import Idealize.ShloMosaic.Lib.ValueIdx

set_option maxRecDepth 16384

noncomputable section

namespace Cert.KernelIdeal.Block

open Cert.KernelIdeal Cert.KernelIdeal.Gen Idealize.ShloMosaic Idealize.ShloMosaic.TcCoe Idealize.ShloMosaic.Tactic
open Idealize.SL Idealize.SL.Sem Idealize.ShloMosaic.ValueIdx

variable {F : FTy → Type} [FloatOps F]

open Lean Elab Tactic Meta in
/-- Open one level of the run's chain of named values: every run-named word except the accumulator's piece lists,
    then the piece lists that are visible, once. -/
elab "open_run_level" : tactic => do
  let g ← getMainGoal
  let isLists (n : Name) : Bool := match n with | .str _ last => last.startsWith "HS0_" | _ => false
  let isWord (n : Name) : Bool := n.components.dropLast.any (· == `sl) && !isLists n
  let mut t ← instantiateMVars (← g.getType)
  for _ in [0:6] do
    let t' ← Meta.deltaExpand t isWord
    if t' == t then break
    t := t'
  t ← Meta.deltaExpand t (fun n => n.components.dropLast.any (· == `sl) && isLists n)
  replaceMainGoal [← g.replaceTargetDefEq t]

open Lean Elab Tactic Meta in
/-- Open the body's named store values to the operations they are made of. -/
elab "open_store_values" : tactic => do
  let g ← getMainGoal
  let isPay (n : Name) : Bool := match n with | .str _ last => last.startsWith "k0_pay" | _ => false
  let t ← instantiateMVars (← g.getType)
  let t' ← Meta.deltaExpand t isPay
  replaceMainGoal [← g.replaceTargetDefEq t']

/-- A load of the whole block after a store of the whole block reads that store's value, whatever was stored before. -/
theorem readCov_cons_whole {Val : EltTy → Type} {S : Shape} {e : EltTy} [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

theorem zero2 : (![0, 0] : Fin S512x512.rank → Nat) = fun _ => 0 := by funext a; fin_cases a <;> rfl

theorem zero2' : (![0, 0] : Fin S1x512.rank → Nat) = fun _ => 0 := by funext a; fin_cases a <;> rfl

/-- A load of 128 columns from column `off` of a 512×4096 block is the column window `cols · off`. -/
theorem ld_cols {e : EltTy} (X : Vec F S512x4096 e) (off : Nat)
    (inb : ∀ a, (![0, off] : Fin S512x4096.rank → Nat) a + (![512, 128] : Fin S512x4096.rank → Nat) a ≤ S512x4096.size a) :
    View.ld X (Rect.unit ![0, off] ![512, 128] inb) = cols X off := by
  funext y
  have h1 : off + 128 ≤ 4096 := inb 1
  have hy : (y 1).val < 128 := (y 1).isLt
  show X ((Rect.unit ![0, off] ![512, 128] inb).idx y) = X _
  refine congrArg X (funext fun a => Fin.ext ?_)
  match a with
  | ⟨0, _⟩ => show 0 + 1 * (y 0).val = (y 0).val; omega
  | ⟨1, _⟩ =>
    show off + 1 * (y 1).val = (off + (y 1).val) % 4096
    rw [Nat.mod_eq_of_lt (by omega)]; omega

/-- A load of column `g` of a 512×32 block is `col · g`. -/
theorem ld_col {e : EltTy} (X : Vec F S512x32 e) (g : Nat)
    (inb : ∀ a, (![0, g] : Fin S512x32.rank → Nat) a + (![512, 1] : Fin S512x32.rank → Nat) a ≤ S512x32.size a) :
    View.ld X (Rect.unit ![0, g] ![512, 1] inb) = col X g := by
  funext y
  have h1 : g + 1 ≤ 32 := inb 1
  have hy : (y 1).val < 1 := (y 1).isLt
  show X ((Rect.unit ![0, g] ![512, 1] inb).idx y) = X _
  refine congrArg X (funext fun a => Fin.ext ?_)
  match a with
  | ⟨0, _⟩ => show 0 + 1 * (y 0).val = (y 0).val; omega
  | ⟨1, _⟩ =>
    show g + 1 * (y 1).val = g % 32
    rw [Nat.mod_eq_of_lt (by omega)]; omega

set_option maxHeartbeats 0 in
/-- The output block after the body, on any staging memrefs, from input blocks `x0 … x4`. -/
theorem piece_eq (c : Dev nD) (i : grid0.Coords) (arg2 : Memref sig .tc .vmem S512x4096 .i32) (harg2 : arg2.IsWhole) (arg3 : Memref sig .tc .vmem S512x32 .f32) (harg3 : arg3.IsWhole) (arg4 : Memref sig .tc .vmem S512x32 .f32) (harg4 : arg4.IsWhole) (arg5 : Memref sig .tc .vmem S512x4096 .bf16) (harg5 : arg5.IsWhole) (arg6 : Memref sig .tc .vmem S1x512 .f32) (harg6 : arg6.IsWhole) (arg7 : Memref sig .tc .vmem S512x512 .f32) (harg7 : arg7.IsWhole) (arg8 : Memref sig .tc .vmem S512x512 .f32) (harg8 : arg8.IsWhole)
    (x0 : Vec F S512x4096 .i32) (x1 : Vec F S512x32 .f32) (x2 : Vec F S512x32 .f32) (x3 : Vec F S512x4096 .bf16) (x4 : Vec F S1x512 .f32) :
    out0_A_5 c i arg2 harg2 arg3 harg3 arg4 harg4 arg5 harg5 arg6 harg6 arg7 harg7 arg8 harg8 x0 x1 x2 x3 x4
      = blockValue x0 x1 x2 x3 x4 := by
  unfold out0_A_5
  rw [View.read_writes_eq_canon _ _ _ (cover0_A_5 c i arg2 harg2 arg3 harg3 arg4 harg4 arg5 harg5 arg6 harg6 arg7 harg7 arg8 harg8 x0 x1 x2 x3 x4)]
  unfold kernelRun0_A
  dsimp only
  rw [View.canon_unit_zero zero2]
  iterate 33 (open_run_level; rw [readCov_cons_whole (S := S512x512) _ zero2])
  open_store_values
  dsimp only
  simp only [View.readAt_eq_ld, Memref.IsWhole.read_unread, ld_cols, ld_col, View.ld_unit_zero (S := S1x512) zero2']
  rfl

end Cert.KernelIdeal.Block

end
-- ==== Proof.KernelHost.lean ====
import proofs.«415557_j16587163697891_1_alg».proof.Proof.Gen.KernelIdeal.Frame
import Idealize.ShloMosaic.Lib.StableHlo.Run
import Idealize.ShloMosaic.Lib.Pipeline.Value
import Idealize.ShloMosaic.Lib.ValueIdx

/-!
# What the region finds in the two windows that the host prepared

Before its one region the program permutes the columns of the activations: the column read at position k
is the one the permutation's k-th entry names, an entry below zero counted from the end (4096 is added to it).
The permuted array of shape [4, 2048, 4096] is then laid out as 8192 rows of 4096 entries, row R being row
R % 2048 of batch R / 2048, and its entries are re-read in a narrower float format, which changes no extended
real. The bias of 4096 entries is laid out as one row.
-/

set_option maxRecDepth 16384

noncomputable section

namespace Cert.KernelIdeal.HostSide
open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- The activations with their columns permuted: argument 0 gathered along its last axis at argument 5's entries, a negative entry taken from the end. -/
def permuted (x0 : (⟨S4x2048x4096, .f32⟩ : BufTy).Contents (Elt Ideal)) (x5 : (⟨S4096, .i32⟩ : BufTy).Contents (Elt Ideal)) :
    (⟨S4x2048x4096, .f32⟩ : BufTy).Contents (Elt Ideal) :=
  Host.gather gather_S4x2048x4096_S4096x1_S4x2048x4096_01_2_n_n_2_1_420481 x0
    (broadcastInDim S4096x1 ![0] bcast_S4096_S4096x1_0
      (select (cmpi .slt x5 (broadcastInDim S4096 ![] bcast_S_S4096 (constantI S_ 32 0#32)))
        (addi x5 (broadcastInDim S4096 ![] bcast_S_S4096 (constantI S_ 32 4096#32))) x5))

/-- An array of shape [4, 2048, 4096] laid out as 8192 rows of 4096: entry (R, k) of the rows is entry
    (R / 2048, R % 2048, k) of the array, both at position R * 4096 + k of the row-major order. -/
theorem rows_apply (y : (⟨S4x2048x4096, .f32⟩ : BufTy).Contents (Elt Ideal)) (R : Fin 8192) (k : Fin 4096) :
    shapeCast S8192x4096 y shapeCasts_S4x2048x4096_S8192x4096 (ValueIdx.ix2 R k)
      = y (ValueIdx.ix3 ⟨R.val / 2048, by have := R.isLt; omega⟩ ⟨R.val % 2048, Nat.mod_lt _ (by norm_num)⟩ k) := by
  refine shapeCast_apply y shapeCasts_S4x2048x4096_S8192x4096 _ _ ?_
  rw [Shape.rowMajor_val_three, Shape.rowMajor_val_two]
  show (R.val / 2048 * 2048 + R.val % 2048) * 4096 + k.val = R.val * 4096 + k.val
  omega

/-- A vector of 4096 entries laid out as one row: entry (0, o) of the row is entry o of the vector. -/
theorem row_apply (b : (⟨S4096, .f32⟩ : BufTy).Contents (Elt Ideal)) (o : Fin 4096) :
    shapeCast S1x4096 b shapeCasts_S4096_S1x4096 (ValueIdx.ix2 (0 : Fin 1) o) = b (ValueIdx.ix1 o) := by
  refine shapeCast_apply b shapeCasts_S4096_S1x4096 _ _ ?_
  rw [Shape.rowMajor_val_one, Shape.rowMajor_val_two]
  show o.val = (0 : Fin 1).val * 4096 + o.val
  simp

/-- The whole staged activation array as one term: the permuted activations, re-laid as rows, in the narrower format. -/
theorem acts_array (c : Dev nD) :
    (V m c main_v8 : (⟨S8192x4096, .bf16⟩ : BufTy).Contents (Elt Ideal))
      = (truncf (F := Ideal) .bf16 (shapeCast S8192x4096
          (permuted (m ((c : Thread nD τ).loc main_arg0)) (m ((c : Thread nD τ).loc main_arg5)))
          shapeCasts_S4x2048x4096_S8192x4096) bitsLt_bf16_f32 : (⟨S8192x4096, .bf16⟩ : BufTy).Contents (Elt Ideal)) := by
  show StableHlo.after hostOps0 (fun b => m (c, b)) (Proc.devRef .tc main_v8) = _
  after_results
  rfl

/-- Entry (R, k) of the staged activations is entry (R / 2048, R % 2048, k) of the permuted activations: the change of
    float format is the identity on extended reals, and the rows are read by their row-major position. -/
theorem V_acts (c : Dev nD) (R : Fin 8192) (k : Fin 4096) :
    (V m c main_v8 : (⟨S8192x4096, .bf16⟩ : BufTy).Contents (Elt Ideal)) (ValueIdx.ix2 R k)
      = permuted (m ((c : Thread nD τ).loc main_arg0)) (m ((c : Thread nD τ).loc main_arg5))
          (ValueIdx.ix3 ⟨R.val / 2048, by have := R.isLt; omega⟩ ⟨R.val % 2048, Nat.mod_lt _ (by norm_num)⟩ k) := by
  refine (congrFun (acts_array m c) (ValueIdx.ix2 R k)).trans ?_
  exact rows_apply (permuted (m ((c : Thread nD τ).loc main_arg0)) (m ((c : Thread nD τ).loc main_arg5))) R k

/-- The whole staged bias as one term: the bias laid out as a single row. -/
theorem bias_array (c : Dev nD) :
    (V m c main_v9 : (⟨S1x4096, .f32⟩ : BufTy).Contents (Elt Ideal))
      = (shapeCast S1x4096 (m ((c : Thread nD τ).loc main_arg4)) shapeCasts_S4096_S1x4096
          : (⟨S1x4096, .f32⟩ : BufTy).Contents (Elt Ideal)) := by
  show StableHlo.after hostOps0 (fun b => m (c, b)) (Proc.devRef .tc main_v9) = _
  after_results
  rfl

/-- Entry (0, o) of the staged bias is entry o of the bias. -/
theorem V_bias (c : Dev nD) (o : Fin 4096) :
    (V m c main_v9 : (⟨S1x4096, .f32⟩ : BufTy).Contents (Elt Ideal)) (ValueIdx.ix2 (0 : Fin 1) o)
      = m ((c : Thread nD τ).loc main_arg4) (ValueIdx.ix1 o) := by
  refine (congrFun (bias_array m c) (ValueIdx.ix2 (0 : Fin 1) o)).trans ?_
  exact row_apply (m ((c : Thread nD τ).loc main_arg4)) o

end Cert.KernelIdeal.HostSide

end
-- ==== Proof.KernelChunkValue.lean ====
/-
  The kernel's body at the extended reals, index by index.

  One group's update adds to the accumulator at (r, c) the sum over the group's 128 columns of the activation
  at (r, column) times the weight the master code at (c, column) stands for under row c's scale and zero point;
  after g groups the accumulator at (r, c) is the sum of those sums over the first g groups; and the output
  block is the full sum over all 4096 columns plus the bias of column c. The only step that is not reading a
  definition at an index is the last: the 32 sums of 128 terms are the one sum of 4096 terms.
-/
import proofs.«415557_j16587163697891_1_alg».proof.Proof.KernelChunk
import proofs.«415557_j16587163697891_1_alg».proof.Proof.Spec
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Block

open Cert.KernelIdeal Cert.KernelIdeal.Gen Idealize.ShloMosaic Idealize.ShloMosaic.ValueIdx

/-! ## The contraction: which operand entries meet at a result entry -/

/-- The left operand's row is the result's row. -/
theorem lhs_axis0 (i : S512x512.Idx) (q : dot_S512x128_S512x128_S512x512_1_1_0_0_n_n.contr.Idx) :
    (dot_S512x128_S512x128_S512x512_1_1_0_0_n_n.lhsIdx i q 0).val = (i 0).val := by
  unfold DotDims.lhsIdx
  rw [dif_neg (show ¬(0 : Fin S512x128.rank) ∈ dot_S512x128_S512x128_S512x512_1_1_0_0_n_n.lhsBatch by decide), dif_pos (show (0 : Fin S512x128.rank) ∈ dot_S512x128_S512x128_S512x512_1_1_0_0_n_n.lhsNonContracting by decide)]
  rfl
/-- The left operand's column is the contracted position. -/
theorem lhs_axis1 (i : S512x512.Idx) (q : dot_S512x128_S512x128_S512x512_1_1_0_0_n_n.contr.Idx) :
    (dot_S512x128_S512x128_S512x512_1_1_0_0_n_n.lhsIdx i q 1).val = (q ⟨0, by decide⟩).val :=
  dot_S512x128_S512x128_S512x512_1_1_0_0_n_n.lhsIdx_val_of_single rfl i q
/-- The right operand's row is the result's column. -/
theorem rhs_axis0 (i : S512x512.Idx) (q : dot_S512x128_S512x128_S512x512_1_1_0_0_n_n.contr.Idx) :
    (dot_S512x128_S512x128_S512x512_1_1_0_0_n_n.rhsIdx i q 0).val = (i 1).val := by
  unfold DotDims.rhsIdx
  rw [dif_neg (show ¬(0 : Fin S512x128.rank) ∈ dot_S512x128_S512x128_S512x512_1_1_0_0_n_n.rhsBatch by decide), dif_pos (show (0 : Fin S512x128.rank) ∈ dot_S512x128_S512x128_S512x512_1_1_0_0_n_n.rhsNonContracting by decide)]
  rfl
/-- The right operand's column is the contracted position. -/
theorem rhs_axis1 (i : S512x512.Idx) (q : dot_S512x128_S512x128_S512x512_1_1_0_0_n_n.contr.Idx) :
    (dot_S512x128_S512x128_S512x512_1_1_0_0_n_n.rhsIdx i q 1).val = (q ⟨0, by decide⟩).val :=
  dot_S512x128_S512x128_S512x512_1_1_0_0_n_n.rhsIdx_val_of_single rfl i q

/-- The product of a 512×128 block with the transpose of another, started from the zero block: at (r, c) the sum
    over the 128 columns of the products of row r of the first with row c of the second. -/
theorem matmul_zero_apply (a b : FVec Ideal S512x128 .bf16) (r c : Fin 512) :
    matmul (F := Ideal) dot_S512x128_S512x128_S512x512_1_1_0_0_n_n none a b (constant (F := Ideal) S512x512 .f32 0x00000000#32) (ix2 r c)
      = ∑ kk : Fin 128, a (ix2 r kk) * b (ix2 c kk) := by
  show FloatOps.matmul dot_S512x128_S512x128_S512x512_1_1_0_0_n_n none a b (constant (F := Ideal) S512x512 .f32 0x00000000#32) (ix2 r c) = _
  rw [Ideal.matmul_constant_zero_apply, ← Equiv.sum_comp (ValueIdx.contrEquiv1 dot_S512x128_S512x128_S512x512_1_1_0_0_n_n 128 rfl rfl).symm]
  refine Finset.sum_congr rfl fun k _ => ?_
  have hk := ValueIdx.contrEquiv1_symm_val dot_S512x128_S512x128_S512x512_1_1_0_0_n_n 128 rfl rfl k
  have el : dot_S512x128_S512x128_S512x512_1_1_0_0_n_n.lhsIdx (ix2 r c) ((ValueIdx.contrEquiv1 dot_S512x128_S512x128_S512x512_1_1_0_0_n_n 128 rfl rfl).symm k) = ix2 r k := funext fun a => Fin.ext (by
    match a with
    | ⟨0, _⟩ => exact lhs_axis0 _ _
    | ⟨1, _⟩ => exact (lhs_axis1 _ _).trans hk)
  have er : dot_S512x128_S512x128_S512x512_1_1_0_0_n_n.rhsIdx (ix2 r c) ((ValueIdx.contrEquiv1 dot_S512x128_S512x128_S512x512_1_1_0_0_n_n 128 rfl rfl).symm k) = ix2 c k := funext fun a => Fin.ext (by
    match a with
    | ⟨0, _⟩ => exact rhs_axis0 _ _
    | ⟨1, _⟩ => exact (rhs_axis1 _ _).trans hk)
  rw [el, er]

/-! ## One group -/

/-- A 512×1 column spread along 128 columns reads, at (c, kk), the column's entry of row c. -/
theorem spreadCol_apply {α : Type} (x : S512x1.Idx → α) (c : Fin 512) (kk : Fin 128) :
    broadcastTo S512x128 x broadcasts_S512x1_S512x128 (ix2 c kk) = x (ix2 c (0 : Fin 1)) :=
  broadcastTo_apply x broadcasts_S512x1_S512x128 (ix2 c kk) (ix2 c (0 : Fin 1)) (fun a => match a with
    | ⟨0, _⟩ => by show c.val = if (512 : Nat) = 1 then 0 else c.val; rw [if_neg (by decide)]
    | ⟨1, _⟩ => by show 0 = if (1 : Nat) = 1 then 0 else kk.val; rw [if_pos rfl])

theorem groupStep_apply (acc : FVec Ideal S512x512 .f32) (q : Vec Ideal S512x128 .i32) (s z : Vec Ideal S512x1 .f32)
    (xx : Vec Ideal S512x128 .bf16) (r c : Fin 512) :
    groupStep (F := Ideal) acc q s z xx (ix2 r c)
      = acc (ix2 r c) + ∑ kk : Fin 128, xx (ix2 r kk) * Cert.Spec.weight (q (ix2 c kk)) (s (ix2 c (0 : Fin 1))) (z (ix2 c (0 : Fin 1))) := by
  unfold groupStep
  rw [shapeCast_self, shapeCast_self, shapeCast_self, shapeCast_self, addf_apply, matmul_zero_apply]
  refine congrArg (acc (ix2 r c) + ·) (Finset.sum_congr rfl fun kk _ => ?_)
  refine congrArg (xx (ix2 r kk) * ·) ?_
  rw [truncf_apply, mulf_apply, subf_apply, spreadCol_apply, spreadCol_apply, sitofp_apply]
  rfl

/-! ## The accumulator after g groups -/

theorem accAfter_apply (x0 : Vec Ideal S512x4096 .i32) (x1 x2 : Vec Ideal S512x32 .f32) (x3 : Vec Ideal S512x4096 .bf16) (g : Nat)
    (r c : Fin 512) :
    accAfter (F := Ideal) x0 x1 x2 x3 g (ix2 r c)
      = ∑ j ∈ Finset.range g, ∑ kk : Fin 128, cols x3 (128 * j) (ix2 r kk)
          * Cert.Spec.weight (cols x0 (128 * j) (ix2 c kk)) (col x1 j (ix2 c (0 : Fin 1))) (col x2 j (ix2 c (0 : Fin 1))) := by
  induction g with
  | zero =>
    rw [Finset.range_zero, Finset.sum_empty]
    show shapeCast S512x512 (broadcast S512x512 (Scalar.ofBits (F := Ideal) .f32 0x00000000#32)) shapeCasts_S512x512_S512x512 (ix2 r c) = 0
    rw [shapeCast_self, broadcast_apply]
    exact Ideal.ofBits_zero_f32
  | succ g ih =>
    rw [Finset.sum_range_succ, ← ih]
    show groupStep (F := Ideal) (accAfter (F := Ideal) x0 x1 x2 x3 g) (cols x0 (128 * g)) (col x1 g) (col x2 g) (cols x3 (128 * g)) (ix2 r c) = _
    rw [groupStep_apply]

/-! ## The output block -/

/-- A 1×512 row spread along 512 rows reads, at (r, c), the row's entry of column c. -/
theorem spreadRow_apply {α : Type} (x : S1x512.Idx → α) (r c : Fin 512) :
    broadcastTo S512x512 x broadcasts_S1x512_S512x512 (ix2 r c) = x (ix2 (0 : Fin 1) c) :=
  broadcastTo_apply x broadcasts_S1x512_S512x512 (ix2 r c) (ix2 (0 : Fin 1) c) (fun a => match a with
    | ⟨0, _⟩ => by show 0 = if (1 : Nat) = 1 then 0 else r.val; rw [if_pos rfl]
    | ⟨1, _⟩ => by show c.val = if (512 : Nat) = 1 then 0 else c.val; rw [if_neg (by decide)])

/-- A window of 128 columns read at (c, kk) is the block at (c, off + kk), the column reduced mod 4096. -/
theorem cols_apply {e : EltTy} (X : Vec Ideal S512x4096 e) (off : Nat) (c : Fin 512) (kk : Fin 128) :
    cols X off (ix2 c kk) = X (ix2 c ⟨(off + kk.val) % 4096, Nat.mod_lt _ (by norm_num)⟩) := rfl

/-- Column g as a 512×1 block read at (c, 0) is the block at (c, g), the column reduced mod 32. -/
theorem col_apply {e : EltTy} (X : Vec Ideal S512x32 e) (g : Nat) (c : Fin 512) :
    col X g (ix2 c (0 : Fin 1)) = X (ix2 c ⟨g % 32, Nat.mod_lt _ (by norm_num)⟩) := rfl

theorem blockValue_apply (x0 : Vec Ideal S512x4096 .i32) (x1 x2 : Vec Ideal S512x32 .f32) (x3 : Vec Ideal S512x4096 .bf16)
    (x4 : Vec Ideal S1x512 .f32) (r c : Fin 512) :
    blockValue (F := Ideal) x0 x1 x2 x3 x4 (ix2 r c)
      = (∑ k : Fin 4096, x3 (ix2 r k) * Cert.Spec.weight (x0 (ix2 c k)) (x1 (ix2 c (Cert.Spec.groupOf k))) (x2 (ix2 c (Cert.Spec.groupOf k))))
        + x4 (ix2 (0 : Fin 1) c) := by
  unfold blockValue
  rw [addf_apply, accAfter_apply, shapeCast_self, spreadRow_apply]
  refine congrArg (· + x4 (ix2 (0 : Fin 1) c)) ?_
  -- the 32 sums of 128 terms are the one sum of 4096 terms: column 128 j + kk lies in group j
  rw [← Cert.Spec.sum_groups (fun k : Fin 4096 =>
    x3 (ix2 r k) * Cert.Spec.weight (x0 (ix2 c k)) (x1 (ix2 c (Cert.Spec.groupOf k))) (x2 (ix2 c (Cert.Spec.groupOf k))))]
  refine Finset.sum_congr rfl fun j hj => Finset.sum_congr rfl fun kk _ => ?_
  have hj' : j < 32 := Finset.mem_range.mp hj
  have hg : (⟨j % 32, Nat.mod_lt _ (by norm_num)⟩ : Fin 32)
      = Cert.Spec.groupOf ⟨(128 * j + kk.val) % 4096, Nat.mod_lt _ (by norm_num)⟩ := Fin.ext (by
    show j % 32 = (128 * j + kk.val) % 4096 / 128
    have := kk.isLt
    omega)
  rw [cols_apply, cols_apply, col_apply, col_apply, hg]

end Cert.KernelIdeal.Block

end
-- ==== Proof.KernelTail.lean ====
import proofs.«415557_j16587163697891_1_alg».proof.Proof.Gen.KernelIdeal.Frame
import Idealize.ShloMosaic.Lib.StableHlo.Run
import Idealize.ShloMosaic.Lib.Pipeline.Value
import Idealize.ShloMosaic.Lib.ValueIdx

/-!
# The result after the region

After its one region the program does one thing: it lays the 8192 rows of 4096 entries that the region wrote
out again as 4 batches of 2048 rows. Entry (b, t, o) of the result is therefore entry (2048 * b + t, o) of the
rows: both sit at position (2048 * b + t) * 4096 + o of the row-major order. Nothing is assumed of the rows
beyond a name for them.
-/

set_option maxRecDepth 16384

noncomputable section

namespace Cert.KernelIdeal.HostSide
open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- 8192 rows of 4096 entries laid out as an array of shape [4, 2048, 4096]: entry (b, t, o) of the array is entry
    (2048 * b + t, o) of the rows, both at position (2048 * b + t) * 4096 + o of the row-major order. -/
theorem batches_apply (y : (⟨S8192x4096, .f32⟩ : BufTy).Contents (Elt Ideal)) (b : Fin 4) (t : Fin 2048) (o : Fin 4096) :
    shapeCast S4x2048x4096 y shapeCasts_S8192x4096_S4x2048x4096 (ValueIdx.ix3 b t o)
      = y (ValueIdx.ix2 ⟨2048 * b.val + t.val, by have := b.isLt; have := t.isLt; omega⟩ o) := by
  refine shapeCast_apply y shapeCasts_S8192x4096_S4x2048x4096 _ _ ?_
  rw [Shape.rowMajor_val_two, Shape.rowMajor_val_three]
  show (2048 * b.val + t.val) * 4096 + o.val = (b.val * 2048 + t.val) * 4096 + o.val
  omega

/-- The whole result as one term: if the region leaves the rows G in its output array, the program's result is G
    laid out as batches. The operation after the region reads that array where the region left it and writes only
    the result. -/
theorem tail_array (c : Dev nD) (G : (⟨S8192x4096, .f32⟩ : BufTy).Contents (Elt Ideal))
    (hG : ((dats m 0 c).arrAt 5 cfg0.N : (⟨S8192x4096, .f32⟩ : BufTy).Contents (Elt Ideal)) = G) :
    (Pipeline.afterTail₀ cfgs (dats m) 0 (V0 m) [hostOps1] c main_v11 : (⟨S4x2048x4096, .f32⟩ : BufTy).Contents (Elt Ideal))
      = (shapeCast S4x2048x4096 G shapeCasts_S8192x4096_S4x2048x4096 : (⟨S4x2048x4096, .f32⟩ : BufTy).Contents (Elt Ideal)) := by
  unfold Pipeline.afterTail₀
  show StableHlo.after hostOps1 _ (Proc.devRef .tc main_v11) = _
  after_results
  have hw : (Pipeline.withArrays (cfgs 0).spec c (V0 m c) (fun w => (dats m 0 c).arrAt w (cfgs 0).N)
      (Proc.devRef .tc main_v10) : (⟨S8192x4096, .f32⟩ : BufTy).Contents (Elt Ideal)) = G :=
    (Pipeline.withArrays_arr spec0 launch0.win.arr_inj c (V0 m c) (fun w => (dats m 0 c).arrAt w cfg0.N) 5).trans hG
  rw [hw]
  rfl

/-- Entry (b, t, o) of the program's result is entry (2048 * b + t, o) of the rows the region left. -/
theorem tail_apply (c : Dev nD) (G : (⟨S8192x4096, .f32⟩ : BufTy).Contents (Elt Ideal))
    (hG : ((dats m 0 c).arrAt 5 cfg0.N : (⟨S8192x4096, .f32⟩ : BufTy).Contents (Elt Ideal)) = G)
    (b : Fin 4) (t : Fin 2048) (o : Fin 4096) :
    (Pipeline.afterTail₀ cfgs (dats m) 0 (V0 m) [hostOps1] c main_v11 : (⟨S4x2048x4096, .f32⟩ : BufTy).Contents (Elt Ideal)) (ValueIdx.ix3 b t o)
      = G (ValueIdx.ix2 ⟨2048 * b.val + t.val, by have := b.isLt; have := t.isLt; omega⟩ o) := by
  refine (congrFun (tail_array m c G hG) (ValueIdx.ix3 b t o)).trans ?_
  exact batches_apply G b t o

end Cert.KernelIdeal.HostSide

end
-- ==== Proof.KernelValue.lean ====
/-
  The idealized kernel program's result array.

  At grid point t = (j, i) the region's body is called with rows 512 j … of the codes, scales and zero points,
  rows 512 i … of the staged activations and columns 512 j … of the staged bias row, and writes block (i, j) of an
  8192×4096 array. By `Block.piece_eq` and `Block.blockValue_apply` that block's entry (r, cc) is the sum over all
  4096 columns k of activation (512 i + r, k) times the weight of code (512 j + cc, k), plus bias 512 j + cc: the
  entry (512 i + r, 512 j + cc) of ONE array, `flatResult`, whose row R is token (R / 2048, R % 2048) of the
  specification's result. The 16 × 8 blocks tile the array, so it ends holding `flatResult`; the reshape after the
  region reads row 2048 b + t as token (b, t).
-/
import proofs.«415557_j16587163697891_1_alg».proof.Proof.Gen.KernelIdeal.Frame
import proofs.«415557_j16587163697891_1_alg».proof.Proof.KernelBlock
import proofs.«415557_j16587163697891_1_alg».proof.Proof.Spec
import proofs.«415557_j16587163697891_1_alg».proof.Proof.KernelHost
import proofs.«415557_j16587163697891_1_alg».proof.Proof.KernelChunkValue
import Idealize.ShloMosaic.Lib.Pipeline.Value
import Idealize.ShloMosaic.Lib.ValueIdx
import proofs.«415557_j16587163697891_1_alg».proof.Proof.KernelTail
import Idealize.ShloMosaic.Lib.StableHlo.Run

set_option maxRecDepth 16384

noncomputable section

namespace Cert.KernelIdeal.ArrayValue

open Cert.KernelIdeal Cert.KernelIdeal.Gen Idealize.ShloMosaic Idealize.ShloMosaic.TcCoe Idealize.ShloMosaic.Tactic
open Idealize.SL Idealize.SL.Sem Idealize.ShloMosaic.StableHlo Idealize.ShloMosaic.ValueIdx
open Idealize.ShloMosaic.Pipeline (Dat Cfg Window)

variable (m : (ℓ : Loc nD τ sig) → Buf (Elt Ideal) ℓ) (ρ : Dev nD → PrngReg)

/-- The result at (b, t, o) from the launch memory's argument arrays on core `c`. -/
def resultAt (c : Dev nD) (b : Fin 4) (t : Fin 2048) (o : Fin 4096) : Ideal .f32 :=
  Cert.Spec.result (HostSide.permuted (m ((c : Thread nD τ).loc main_arg0)) (m ((c : Thread nD τ).loc main_arg5)))
    (m ((c : Thread nD τ).loc main_arg1)) (m ((c : Thread nD τ).loc main_arg2)) (m ((c : Thread nD τ).loc main_arg3))
    (m ((c : Thread nD τ).loc main_arg4)) b t o

/-- The 8192×4096 array the region leaves: row `R` is token (R / 2048, R % 2048). -/
def flatResult (c : Dev nD) : S8192x4096.Idx → Ideal .f32 := fun i =>
  resultAt m c ⟨(i 0).val / 2048, by have : (i 0).val < 8192 := (i 0).isLt; omega⟩ ⟨(i 0).val % 2048, Nat.mod_lt _ (by norm_num)⟩
    ⟨(i 1).val, (i 1).isLt⟩

/-! ## The blocks the body is called with, by their literal types -/

abbrev codeBlk (c : Dev nD) (t : Fin cfg0.N) : Vec Ideal S512x4096 .i32 := iblk m c 0 t
abbrev scaleBlk (c : Dev nD) (t : Fin cfg0.N) : Vec Ideal S512x32 .f32 := iblk m c 1 t
abbrev zeroBlk (c : Dev nD) (t : Fin cfg0.N) : Vec Ideal S512x32 .f32 := iblk m c 2 t
abbrev actBlk (c : Dev nD) (t : Fin cfg0.N) : Vec Ideal S512x4096 .bf16 := iblk m c 3 t
abbrev biasBlk (c : Dev nD) (t : Fin cfg0.N) : Vec Ideal S1x512 .f32 := iblk m c 4 t

/-- The printed index maps over the grid: at point `t` the codes', scales' and zero points' blocks are the rows of the
    output block's columns, the activations' block the rows of its rows, the bias block the columns of its columns;
    and the output's block indices stay in their ranges. -/
theorem idx_facts : ∀ t : Fin cfg0.N,
    win0_0.index t (0 : Fin 2) = win0_5.index t (1 : Fin 2) ∧ win0_0.index t (1 : Fin 2) = 0
    ∧ win0_1.index t (0 : Fin 2) = win0_5.index t (1 : Fin 2) ∧ win0_1.index t (1 : Fin 2) = 0
    ∧ win0_2.index t (0 : Fin 2) = win0_5.index t (1 : Fin 2) ∧ win0_2.index t (1 : Fin 2) = 0
    ∧ win0_3.index t (0 : Fin 2) = win0_5.index t (0 : Fin 2) ∧ win0_3.index t (1 : Fin 2) = 0
    ∧ win0_4.index t (0 : Fin 2) = 0 ∧ win0_4.index t (1 : Fin 2) = win0_5.index t (1 : Fin 2)
    ∧ win0_5.index t (0 : Fin 2) ≤ 15 ∧ win0_5.index t (1 : Fin 2) ≤ 7 :=
  (by decide +kernel : ∀ t : Fin grid0.N, _)

/-- Every block of the output array is some point's. -/
theorem idx_onto : ∀ (q0 : Fin 16) (q1 : Fin 8), ∃ t : Fin cfg0.N, win0_5.index t = ![q0.val, q1.val] :=
  (by decide +kernel : ∀ (q0 : Fin 16) (q1 : Fin 8), ∃ t : Fin grid0.N, win0_5.index t = ![q0.val, q1.val])

/-- The codes' block at (cc, k) is the codes' array at (row of the output's column, k). -/
theorem codeBlk_apply (c : Dev nD) (t : Fin cfg0.N) (cc : Fin 512) (k : Fin 4096) (O : Fin 4096)
    (hO : O.val = win0_5.index t (1 : Fin 2) * 512 + cc.val) :
    codeBlk m c t (ix2 cc k) = m ((c : Thread nD τ).loc main_arg1) (ix2 O k) := by
  obtain ⟨e00, e01, -⟩ := idx_facts t
  rw [← V_main_arg1 m c]
  show V m c main_arg1 (((cfg0.win 0).blk t).view.emb (ix2 cc k)) = V m c main_arg1 (ix2 O k)
  refine congrArg (V m c main_arg1) (funext fun a => Fin.ext ?_)
  match a with
  | ⟨0, _⟩ => show win0_0.index t (0 : Fin 2) * 512 + 1 * cc.val = O.val; omega
  | ⟨1, _⟩ => show win0_0.index t (1 : Fin 2) * 4096 + 1 * k.val = k.val; omega

/-- The scales' block at (cc, g) is the scales' array at (row of the output's column, g). -/
theorem scaleBlk_apply (c : Dev nD) (t : Fin cfg0.N) (cc : Fin 512) (g : Fin 32) (O : Fin 4096)
    (hO : O.val = win0_5.index t (1 : Fin 2) * 512 + cc.val) :
    scaleBlk m c t (ix2 cc g) = m ((c : Thread nD τ).loc main_arg2) (ix2 O g) := by
  obtain ⟨-, -, e10, e11, -⟩ := idx_facts t
  rw [← V_main_arg2 m c]
  show V m c main_arg2 (((cfg0.win 1).blk t).view.emb (ix2 cc g)) = V m c main_arg2 (ix2 O g)
  refine congrArg (V m c main_arg2) (funext fun a => Fin.ext ?_)
  match a with
  | ⟨0, _⟩ => show win0_1.index t (0 : Fin 2) * 512 + 1 * cc.val = O.val; omega
  | ⟨1, _⟩ => show win0_1.index t (1 : Fin 2) * 32 + 1 * g.val = g.val; omega

/-- The zero points' block at (cc, g) is the zero points' array at (row of the output's column, g). -/
theorem zeroBlk_apply (c : Dev nD) (t : Fin cfg0.N) (cc : Fin 512) (g : Fin 32) (O : Fin 4096)
    (hO : O.val = win0_5.index t (1 : Fin 2) * 512 + cc.val) :
    zeroBlk m c t (ix2 cc g) = m ((c : Thread nD τ).loc main_arg3) (ix2 O g) := by
  obtain ⟨-, -, -, -, e20, e21, -⟩ := idx_facts t
  rw [← V_main_arg3 m c]
  show V m c main_arg3 (((cfg0.win 2).blk t).view.emb (ix2 cc g)) = V m c main_arg3 (ix2 O g)
  refine congrArg (V m c main_arg3) (funext fun a => Fin.ext ?_)
  match a with
  | ⟨0, _⟩ => show win0_2.index t (0 : Fin 2) * 512 + 1 * cc.val = O.val; omega
  | ⟨1, _⟩ => show win0_2.index t (1 : Fin 2) * 32 + 1 * g.val = g.val; omega

/-- The activations' block at (r, k) is the staged activations at (row of the output's row, k). -/
theorem actBlk_apply (c : Dev nD) (t : Fin cfg0.N) (r : Fin 512) (k : Fin 4096) (R : Fin 8192)
    (hR : R.val = win0_5.index t (0 : Fin 2) * 512 + r.val) :
    actBlk m c t (ix2 r k) = (V m c main_v8 : (⟨S8192x4096, .bf16⟩ : BufTy).Contents (Elt Ideal)) (ix2 R k) := by
  obtain ⟨-, -, -, -, -, -, e30, e31, -⟩ := idx_facts t
  show V m c main_v8 (((cfg0.win 3).blk t).view.emb (ix2 r k)) = V m c main_v8 (ix2 R k)
  refine congrArg (V m c main_v8) (funext fun a => Fin.ext ?_)
  match a with
  | ⟨0, _⟩ => show win0_3.index t (0 : Fin 2) * 512 + 1 * r.val = R.val; omega
  | ⟨1, _⟩ => show win0_3.index t (1 : Fin 2) * 4096 + 1 * k.val = k.val; omega

/-- The bias block at (0, cc) is the staged bias row at (0, column of the output's column). -/
theorem biasBlk_apply (c : Dev nD) (t : Fin cfg0.N) (cc : Fin 512) (O : Fin 4096)
    (hO : O.val = win0_5.index t (1 : Fin 2) * 512 + cc.val) :
    biasBlk m c t (ix2 (0 : Fin 1) cc) = (V m c main_v9 : (⟨S1x4096, .f32⟩ : BufTy).Contents (Elt Ideal)) (ix2 (0 : Fin 1) O) := by
  obtain ⟨-, -, -, -, -, -, -, -, e40, e41, -⟩ := idx_facts t
  show V m c main_v9 (((cfg0.win 4).blk t).view.emb (ix2 (0 : Fin 1) cc)) = V m c main_v9 (ix2 (0 : Fin 1) O)
  refine congrArg (V m c main_v9) (funext fun a => Fin.ext ?_)
  match a with
  | ⟨0, _⟩ => show win0_4.index t (0 : Fin 2) * 1 + 1 * 0 = 0; omega
  | ⟨1, _⟩ => show win0_4.index t (1 : Fin 2) * 512 + 1 * cc.val = O.val; omega

/-- WHAT POINT `t` WRITES BACK is block `t` of the 8192×4096 result array. -/
theorem flushed_eq (c : Dev nD) (t : Fin cfg0.N) :
    (dats m 0 c).flushed 5 t = ((cfg0.win 5).blk t).view.read (Elt Ideal) (flatResult m c) := by
  show (cfg0.win 5).cut (grid0.coords t) ((dats m 0 c).after 5 t) = _
  rw [after0_5]
  unfold outsAt0
  rw [Block.piece_eq]
  funext j
  obtain ⟨r, cc, rfl⟩ : ∃ (r : Fin 512) (cc : Fin 512), j = ix2 r cc := ⟨j 0, j 1, eq_ix2 j⟩
  obtain ⟨-, -, -, -, -, -, -, -, -, -, b0, b1⟩ := idx_facts t
  have hR : win0_5.index t (0 : Fin 2) * 512 + r.val < 8192 := by have := r.isLt; omega
  have hO : win0_5.index t (1 : Fin 2) * 512 + cc.val < 4096 := by have := cc.isLt; omega
  show Block.blockValue (F := Ideal) (codeBlk m c t) (scaleBlk m c t) (zeroBlk m c t) (actBlk m c t) (biasBlk m c t) (ix2 r cc)
      = flatResult m c (((cfg0.win 5).blk t).view.emb (ix2 r cc))
  have hidx : ((cfg0.win 5).blk t).view.emb (ix2 r cc)
      = ix2 (⟨win0_5.index t (0 : Fin 2) * 512 + r.val, hR⟩ : Fin 8192) (⟨win0_5.index t (1 : Fin 2) * 512 + cc.val, hO⟩ : Fin 4096) := by
    funext a; apply Fin.ext
    match a with
    | ⟨0, _⟩ => show win0_5.index t (0 : Fin 2) * 512 + 1 * r.val = win0_5.index t (0 : Fin 2) * 512 + r.val; omega
    | ⟨1, _⟩ => show win0_5.index t (1 : Fin 2) * 512 + 1 * cc.val = win0_5.index t (1 : Fin 2) * 512 + cc.val; omega
  rw [hidx, Block.blockValue_apply]
  unfold flatResult resultAt Cert.Spec.result
  refine congrArg₂ (· + ·) (Finset.sum_congr rfl fun k _ => ?_) ?_
  · rw [actBlk_apply m c t r k ⟨_, hR⟩ rfl, codeBlk_apply m c t cc k ⟨_, hO⟩ rfl,
      scaleBlk_apply m c t cc (Cert.Spec.groupOf k) ⟨_, hO⟩ rfl, zeroBlk_apply m c t cc (Cert.Spec.groupOf k) ⟨_, hO⟩ rfl,
      HostSide.V_acts]
  · rw [biasBlk_apply m c t cc ⟨_, hO⟩ rfl, HostSide.V_bias]

/-- An index of the array is in point `t`'s block iff each coordinate is in the block's range on its axis. -/
theorem mem_blk (t : Fin cfg0.N) (i : S8192x4096.Idx) :
    i ∈ ((cfg0.win 5).blk t).view.set ↔ ∀ a : Fin 2, win0_5.index t a * S512x512.size a ≤ (i a).val ∧ (i a).val < win0_5.index t a * S512x512.size a + S512x512.size a := by
  show i ∈ ((View.whole main_v10).slice (win0_5.rect t)).set ↔ _
  rw [View.set_slice_whole, Rect.mem_set_unit]
  exact Iff.rfl

/-- Every index of the array is in some point's block: the one of its row's and its column's 512-block. -/
theorem cover (i : S8192x4096.Idx) : ∃ t : Fin cfg0.N, (cfg0.win 5).flush t = true ∧ i ∈ ((cfg0.win 5).blk t).view.set := by
  have hi0 : (i 0).val < 8192 := (i 0).isLt
  have hi1 : (i 1).val < 4096 := (i 1).isLt
  obtain ⟨t, ht⟩ := idx_onto ⟨(i 0).val / 512, by omega⟩ ⟨(i 1).val / 512, by omega⟩
  have q0 : win0_5.index t (0 : Fin 2) = (i 0).val / 512 := congrFun ht 0
  have q1 : win0_5.index t (1 : Fin 2) = (i 1).val / 512 := congrFun ht 1
  refine ⟨t, flush0_5 t, ?_⟩
  rw [mem_blk]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 512 ≤ (i 1).val ∧ (i 1).val < win0_5.index t (1 : Fin 2) * 512 + 512; omega

/-- THE ARRAY the region leaves is the 8192×4096 result array. -/
theorem final (c : Dev nD) : (dats m 0 c).arrAt 5 cfg0.N = flatResult m c :=
  (dats m 0 c).arrAt_eq_of_cover 5 (flatResult m c) (fun t _ => flushed_eq m c t) (cover)

/-! ## The program's result -/

/-- The result array: at (b, t, o) the specification's result of the launch memory's argument arrays. -/
def resultArray (c : Dev nD) : (⟨S4x2048x4096, .f32⟩ : BufTy).Contents (Elt Ideal) := fun i =>
  resultAt m c ⟨(i 0).val, (i 0).isLt⟩ ⟨(i 1).val, (i 1).isLt⟩ ⟨(i 2).val, (i 2).isLt⟩

/-- What the reshape after the region leaves in the result buffer: row 2048 b + t of the region's array is token (b, t). -/
theorem result_eq (c : Dev nD) :
    (Pipeline.afterTail₀ cfgs (dats m) 0 (V0 m) [hostOps1] c main_v11 : (⟨S4x2048x4096, .f32⟩ : BufTy).Contents (Elt Ideal))
      = resultArray m c := by
  funext i
  obtain ⟨b, t, o, rfl⟩ : ∃ (b : Fin 4) (t : Fin 2048) (o : Fin 4096), i = ix3 b t o := ⟨i 0, i 1, i 2, eq_ix3 i⟩
  refine (HostSide.tail_apply m c (flatResult m c) (final m c) b t o).trans ?_
  have hb := b.isLt
  have ht := t.isLt
  show resultAt m c ⟨(2048 * b.val + t.val) / 2048, _⟩ ⟨(2048 * b.val + t.val) % 2048, _⟩ ⟨o.val, _⟩ = resultAt m c b t o
  congr 1
  · exact Fin.ext (by show (2048 * b.val + t.val) / 2048 = b.val; omega)
  · exact Fin.ext (by show (2048 * b.val + t.val) % 2048 = t.val; omega)

/-- The idealized kernel program's run: every weakly fair execution terminates with the result buffer at the result
    array and the argument arrays unchanged (the arguments as the generated frame reads them off the same run). -/
theorem run : θ_run defs (onTc (τ := τ) (main (F := Ideal))) ⟨m, fun _ => 0, ρ⟩ (fun r => ∀ c : Dev nD,
      r.2.mem ((c.tc : Thread nD τ).loc main_v11) = resultArray m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v11 (Pipeline.mem_restRefs_of main_v11 (by decide) (by decide))).trans (result_eq m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c))),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.ArrayValue

end
-- ==== Proof.lean ====
/-
  The certificate of a 4-bit-sliced dequantisation fused with a matrix product against its plain reference.

  Both programs compute, at (b, s, o), `Σ_{k < 4096} X[b, s, k] · weight[o, k] + bias[o]` over the extended reals
  (`Cert.Spec.result`): `X` the activations with their columns permuted, the weight of column k the code's rounded,
  clipped 4-bit slice shifted back, minus its group's zero point, times its group's scale. The kernel tiles the
  8192 token rows and the 4096 output features into 512×512 blocks and, inside a block, adds the 32 groups of 128
  columns one after the other to an accumulator started at zero (`ArrayValue.run`); the reference contracts all
  4096 columns at once (`RefValue.result_eq` over its generated run). A finite sum on the extended reals does not
  depend on how it is grouped, so the two agree with no use of the inputs' finiteness. Nothing of the program is
  rewritten by the idealisation (its ledger is empty); the word-level kernel and the idealized one run by their
  generated frames, and the reference's frame is its generated run with the result dropped.
-/
import proofs.«415557_j16587163697891_1_alg».proof.Defs
import proofs.«415557_j16587163697891_1_alg».proof.Proof.Gen.Kernel
import proofs.«415557_j16587163697891_1_alg».proof.Proof.Gen.Kernel.Skeleton
import proofs.«415557_j16587163697891_1_alg».proof.Proof.Gen.Kernel.Launch
import proofs.«415557_j16587163697891_1_alg».proof.Proof.Gen.Kernel.Points
import proofs.«415557_j16587163697891_1_alg».proof.Proof.Gen.Kernel.Frame
import proofs.«415557_j16587163697891_1_alg».proof.Proof.Gen.KernelIdeal
import proofs.«415557_j16587163697891_1_alg».proof.Proof.Gen.KernelIdeal.Skeleton
import proofs.«415557_j16587163697891_1_alg».proof.Proof.Gen.KernelIdeal.Launch
import proofs.«415557_j16587163697891_1_alg».proof.Proof.Gen.KernelIdeal.Points
import proofs.«415557_j16587163697891_1_alg».proof.Proof.Gen.KernelIdeal.Frame
import proofs.«415557_j16587163697891_1_alg».proof.Proof.Gen.ReferenceIdeal
import proofs.«415557_j16587163697891_1_alg».proof.Proof.Gen.ReferenceIdeal.Run
import proofs.«415557_j16587163697891_1_alg».proof.Proof.Gen.ReferenceIdeal.Read
import proofs.«415557_j16587163697891_1_alg».proof.Proof.Gen.Pre_finite_inputs
import proofs.«415557_j16587163697891_1_alg».proof.Proof.RefValue
import proofs.«415557_j16587163697891_1_alg».proof.Proof.KernelValue
import Idealize.ShloMosaic.Adequacy
import Idealize.ShloMosaic.Init

noncomputable section

namespace Cert.Proof

open Idealize.ShloMosaic Idealize.SL.Sem Idealize.ShloMosaic.ValueIdx

/-- The two programs' gathers of the activations are one term: the same operation with the same dimension numbers on
    the same normalised permutation. -/
theorem permuted_eq (x0 : (⟨Cert.ReferenceIdeal.S4x2048x4096, .f32⟩ : BufTy).Contents (Elt Ideal))
    (x5 : (⟨Cert.ReferenceIdeal.S4096, .i32⟩ : BufTy).Contents (Elt Ideal)) :
    Cert.ReferenceIdeal.Read.val_main_v25 (F := Ideal) x0 x5 = Cert.KernelIdeal.HostSide.permuted x0 x5 := rfl

/-- At the extended reals the reference's result array, from argument arrays that agree with the kernel program's, is
    the kernel program's result array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.ArrayValue.resultArray m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, (hagree c).1, (hagree c).2.1, (hagree c).2.2.1, (hagree c).2.2.2.1,
    (hagree c).2.2.2.2.1, (hagree c).2.2.2.2.2]
  funext i
  obtain ⟨b, t, o, rfl⟩ : ∃ (b : Fin 4) (t : Fin 2048) (o : Fin 4096), i = ix3 b t o := ⟨i 0, i 1, i 2, eq_ix3 i⟩
  rw [Cert.ReferenceIdeal.RefValue.result_eq, permuted_eq]
  rfl

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
